-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S32768x1024 : Shape := ⟨2, ![32768, 1024]⟩
abbrev S32 : Shape := ⟨1, ![32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32768x32 .f32) (main_arg1 : FVec F S32768x1024 .f32) (main_arg2 : FVec F S32 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32768x32 : Shape := ⟨2, ![32768, 32]⟩
abbrev S32768x1024 : Shape := ⟨2, ![32768, 1024]⟩
abbrev S32 : Shape := ⟨1, ![32]⟩
abbrev S2048x32 : Shape := ⟨2, ![2048, 32]⟩
abbrev S2048x1024 : Shape := ⟨2, ![2048, 1024]⟩
abbrev S32x1024 : Shape := ⟨2, ![32, 1024]⟩
abbrev S1x32 : Shape := ⟨2, ![1, 32]⟩

abbrev nBuf : Space → Nat
  | .hbm => 4
  | .vmem => 7
  | .smem => 0
  | _ => 0

abbrev bufTy : (tb : Table) → Fin (tcTables nBuf tb) → BufTy
  | .hbm, ⟨0, _⟩ => ⟨S32768x32, .f32⟩
  | .hbm, ⟨1, _⟩ => ⟨S32768x1024, .f32⟩
  | .hbm, ⟨2, _⟩ => ⟨S32, .f32⟩
  | .hbm, ⟨3, _⟩ => ⟨S32, .f32⟩
  | .local _ .vmem, ⟨0, _⟩ => ⟨S2048x32, .f32⟩
  | .local _ .vmem, ⟨1, _⟩ => ⟨S2048x32, .f32⟩
  | .local _ .vmem, ⟨2, _⟩ => ⟨S2048x1024, .f32⟩
  | .local _ .vmem, ⟨3, _⟩ => ⟨S2048x1024, .f32⟩
  | .local _ .vmem, ⟨4, _⟩ => ⟨S32, .f32⟩
  | .local _ .vmem, ⟨5, _⟩ => ⟨S32, .f32⟩
  | .local _ .vmem, ⟨6, _⟩ => ⟨S32x1024, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x32_S2048x32_0_0 : ∀ a, (![0, 0] : Fin 2 → Nat) a + S2048x32.size a ≤ S2048x32.size a
  h_S2048x32 : 0 < S2048x32.numel
  inb_S2048x1024_S2048x1024_0_0 : ∀ a, (![0, 0] : Fin 2 → Nat) a + S2048x1024.size a ≤ S2048x1024.size a
  h_S2048x1024 : 0 < S2048x1024.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  bitsLt_bf16_f32 : FTy.bits .bf16 < FTy.bits .f32
  reduces_S32x1024_S32 : S32x1024.Reduces [1] S32
  dot_S2048x32_S2048x1024_S32x1024_0_0_1_1_n_n_wf : DotDims.WF S2048x32 S2048x1024 S32x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S32768x32.size a
  hwx0_0 : ∀ i : grid0.Coords, EltTy.bits .f32 = 32 ∨ (Rect.block (s := S32768x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)

variable [Facts₀]

def dot_S2048x32_S2048x1024_S32x1024_0_0_1_1_n_n : DotDims S2048x32 S2048x1024 S32x1024 where
  lhsContracting := [0]
  rhsContracting := [0]
  lhsNonContracting := [1]
  rhsNonContracting := [1]
  lhsBatch := []
  rhsBatch := []
  wf := dot_S2048x32_S2048x1024_S32x1024_0_0_1_1_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x32 : Shape := ⟨2, ![32768, 32]⟩
abbrev S32768x1024 : Shape := ⟨2, ![32768, 1024]⟩
abbrev S32 : Shape := ⟨1, ![32]⟩
abbrev S1x32 : Shape := ⟨2, ![1, 32]⟩
abbrev S32x1024 : Shape := ⟨2, ![32, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768x1024, .f32⟩
  | .hbm, ⟨2, _⟩ => ⟨S32, .f32⟩
  | .hbm, ⟨3, _⟩ => ⟨S1x32, .f32⟩
  | .hbm, ⟨4, _⟩ => ⟨S32768x32, .f32⟩
  | .hbm, ⟨5, _⟩ => ⟨S32768x32, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32, .f32⟩
  | .hbm, ⟨13, _⟩ => ⟨S32, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32x1024 : S_.BroadcastsInDim S32x1024 (![] : Fin 0 → Fin S32x1024.rank)
  reducesTo_S32x1024_S32_d1 : S32x1024.ReducesTo [1] S32
  h_S_ : 0 < S_.numel
  dot_S32768x32_S32768x1024_S32x1024_0_0_1_1_n_n_wf : DotDims.WF S32768x32 S32768x1024 S32x1024 [0] [0] [1] [1] [] []

variable [Facts₀]

def dot_S32768x32_S32768x1024_S32x1024_0_0_1_1_n_n : DotDims S32768x32 S32768x1024 S32x1024 where
  lhsContracting := [0]
  rhsContracting := [0]
  lhsNonContracting := [1]
  rhsNonContracting := [1]
  lhsBatch := []
  rhsBatch := []
  wf := dot_S32768x32_S32768x1024_S32x1024_0_0_1_1_n_n_wf

class Facts : Prop extends Facts₀ where

variable [Facts]
-- ==== Proof.BatchTiles.lean ====
/-
  Two facts of plain arithmetic that join the tiled kernel to the whole-batch reference.

  * A sum over the first `T * K` naturals is the sum, over `T` consecutive tiles, of each tile's `K` terms: the batch
    axis of 32768 rows is walked as 16 tiles of 2048.
  * The mean over the batch: the float `2⁻¹⁵` denotes the real `1 / 32768` and the float `32768.0` the real `32768`,
    so on every extended real the quotient by the one is the product with the other.
-/
import Idealize.ShloMosaic.PureOps.Ideal.Laws

noncomputable section

open scoped BigOperators
open Idealize.ShloMosaic

namespace Cert.BatchTiles

/-- `∑ b < T·K, r b = ∑ t < T, ∑ k < K, r (t·K + k)`: by induction on the number of tiles, each step splitting off the
    last tile. -/
theorem sum_range_tiles {M : Type*} [AddCommMonoid M] (K : ℕ) (r : ℕ → M) (T : ℕ) :
    ∑ b ∈ Finset.range (T * K), r b = ∑ t ∈ Finset.range T, ∑ k ∈ Finset.range K, r (t * K + k) := by
  induction T with
  | zero => simp
  | succ T ih => rw [Nat.succ_mul, Finset.sum_range_add, ih, Finset.sum_range_succ]

/-- The pattern `0x38000000` is `2⁻¹⁵ = 1 / 32768`. -/
theorem ofBits_inv_batch : Ideal.ofBits .f32 0x38000000#32 = ((1 / 32768 : ℝ) : EReal) := by
  simp [Ideal.ofBits, Ideal.ieee, -EReal.coe_mul]; norm_num

/-- The pattern `0x47000000` is `2¹⁵ = 32768`. -/
theorem ofBits_batch : Ideal.ofBits .f32 0x47000000#32 = ((32768 : ℝ) : EReal) := by
  simp [Ideal.ofBits, Ideal.ieee, -EReal.coe_mul]; norm_num

/-- Dividing by the batch size is multiplying by its reciprocal, at the infinities too. -/
theorem div_batch (x : EReal) :
    Ideal.div x (Ideal.ofBits .f32 0x47000000#32) = x * Ideal.ofBits .f32 0x38000000#32 := by
  rw [ofBits_batch, ofBits_inv_batch]
  exact Ideal.div_coe (by norm_num) x

end Cert.BatchTiles

end
-- ==== Proof.GradNormSpec.lean ====
/-
  What both programs compute, as one function of the three argument arrays, and the tiled form of its inner sum.

  For outputs `Y` [32768, 32], inputs `X` [32768, 1024] and task weights `w` [32]:
    gram o d = ∑ b, (Y[b, o] · w[o]) · X[b, d]            (the weighted gradient, summed over the batch)
    norm o   = sqrt (∑ d, (gram o d · 2⁻¹⁵) · (gram o d · 2⁻¹⁵))   (the L2 norm of its batch mean)
  The kernel walks the batch in 16 tiles of 2048 rows and adds one tile's partial sum to an accumulator per grid point;
  `partial n` is that accumulator after point `n`, and after the last point it is `gram` (sums over the extended reals
  commute and associate, so no finiteness is needed).
-/
import Idealize.ShloMosaic.PureOps.Ideal.Laws
import Idealize.ShloMosaic.Lib.ValueIdx
import proofs.«103239_j89266600280080_1_alg».proof.Proof.BatchTiles

noncomputable section

open scoped BigOperators
open Idealize.ShloMosaic Idealize.ShloMosaic.ValueIdx

namespace Cert.GradNormSpec

variable (Y : FVec Ideal ⟨2, ![32768, 32]⟩ .f32) (X : FVec Ideal ⟨2, ![32768, 1024]⟩ .f32) (w : FVec Ideal ⟨1, ![32]⟩ .f32)

/-- Batch row `b`'s contribution to entry `(o, d)` of the weighted gradient. -/
def term (o : Fin 32) (d : Fin 1024) (b : Fin 32768) : EReal :=
  (Y (ix2 b o) * w (ix1 o)) * X (ix2 b d)

/-- Entry `(o, d)` of the weighted gradient summed over the batch. -/
def gram (o : Fin 32) (d : Fin 1024) : EReal := ∑ b : Fin 32768, term Y X w o d b

/-- The per-task norm of the batch-mean gradient. -/
def norm : FVec Ideal ⟨1, ![32]⟩ .f32 := fun i =>
  Ideal.sqrt (∑ d : Fin 1024, (gram Y X w (i 0) d * Ideal.ofBits .f32 0x38000000#32)
    * (gram Y X w (i 0) d * Ideal.ofBits .f32 0x38000000#32))

/-- The same contribution with the row a natural number (zero past the batch's end, which no tile reaches). -/
def row (o : Fin 32) (d : Fin 1024) (b : ℕ) : EReal :=
  if h : b < 32768 then term Y X w o d ⟨b, h⟩ else 0

theorem row_of_lt (o : Fin 32) (d : Fin 1024) (b : ℕ) (h : b < 32768) : row Y X w o d b = term Y X w o d ⟨b, h⟩ :=
  dif_pos h

/-- Tile `t`'s partial sum: rows `2048 t … 2048 t + 2047`. -/
def tile (o : Fin 32) (d : Fin 1024) (t : ℕ) : EReal := ∑ k : Fin 2048, row Y X w o d (t * 2048 + k.val)

/-- The accumulator after grid point `n`: tiles `0 … n`. -/
def partialSum (o : Fin 32) (d : Fin 1024) (n : ℕ) : EReal := ∑ t ∈ Finset.range (n + 1), tile Y X w o d t

theorem partialSum_zero (o : Fin 32) (d : Fin 1024) : partialSum Y X w o d 0 = 0 + tile Y X w o d 0 := by
  unfold partialSum
  rw [Finset.sum_range_one, zero_add]

theorem partialSum_succ (o : Fin 32) (d : Fin 1024) (n : ℕ) :
    partialSum Y X w o d (n + 1) = partialSum Y X w o d n + tile Y X w o d (n + 1) := by
  unfold partialSum
  rw [Finset.sum_range_succ]

/-- After the sixteenth tile the accumulator is the whole batch sum. -/
theorem partialSum_last (o : Fin 32) (d : Fin 1024) : partialSum Y X w o d 15 = gram Y X w o d := by
  unfold partialSum gram tile
  have h1 : ∑ b : Fin 32768, term Y X w o d b = ∑ b ∈ Finset.range (16 * 2048), row Y X w o d b := by
    rw [show (16 * 2048 : ℕ) = 32768 from rfl, Finset.sum_range]
    exact Finset.sum_congr rfl fun b _ => (row_of_lt Y X w o d b.val b.isLt).symm
  rw [h1, Cert.BatchTiles.sum_range_tiles]
  exact Finset.sum_congr rfl fun t _ => (Finset.sum_range (fun k => row Y X w o d (t * 2048 + k))).symm

end Cert.GradNormSpec

end
-- ==== Proof.Payloads.lean ====
/-
  The three values the kernel body stores, read at an index over the extended reals.

  * the reset value is `0` everywhere;
  * the accumulation step stores, at `(o, d)`, what the accumulator held there plus the tile's product
    `∑ k, (y[k, o] · w[o]) · x[k, d]` over the tile's 2048 rows `k` (the matrix unit contracts the ROW axis of both
    operands; the narrowing to bf16 is the identity on the extended reals);
  * the epilogue stores, at `o`, `sqrt (∑ d, (a[o, d] · 2⁻¹⁵) · (a[o, d] · 2⁻¹⁵))` of the accumulator `a`.
-/
import proofs.«103239_j89266600280080_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payloads

open Cert.KernelIdeal Cert.KernelIdeal.Gen

/-! ## The tile product: both operands contracted along their rows -/

theorem lhs_tile_0 (i : S32x1024.Idx) (q : dot_S2048x32_S2048x1024_S32x1024_0_0_1_1_n_n.contr.Idx) :
    (dot_S2048x32_S2048x1024_S32x1024_0_0_1_1_n_n.lhsIdx i q 0).val = (q ⟨0, by decide⟩).val :=
  dot_S2048x32_S2048x1024_S32x1024_0_0_1_1_n_n.lhsIdx_val_of_single rfl i q
theorem lhs_tile_1 (i : S32x1024.Idx) (q : dot_S2048x32_S2048x1024_S32x1024_0_0_1_1_n_n.contr.Idx) :
    (dot_S2048x32_S2048x1024_S32x1024_0_0_1_1_n_n.lhsIdx i q 1).val = (i 0).val := by
  unfold DotDims.lhsIdx
  rw [dif_neg (show ¬(1 : Fin S2048x32.rank) ∈ dot_S2048x32_S2048x1024_S32x1024_0_0_1_1_n_n.lhsBatch by decide), dif_pos (show (1 : Fin S2048x32.rank) ∈ dot_S2048x32_S2048x1024_S32x1024_0_0_1_1_n_n.lhsNonContracting by decide)]
  rfl
theorem rhs_tile_0 (i : S32x1024.Idx) (q : dot_S2048x32_S2048x1024_S32x1024_0_0_1_1_n_n.contr.Idx) :
    (dot_S2048x32_S2048x1024_S32x1024_0_0_1_1_n_n.rhsIdx i q 0).val = (q ⟨0, by decide⟩).val :=
  dot_S2048x32_S2048x1024_S32x1024_0_0_1_1_n_n.rhsIdx_val_of_single rfl i q
theorem rhs_tile_1 (i : S32x1024.Idx) (q : dot_S2048x32_S2048x1024_S32x1024_0_0_1_1_n_n.contr.Idx) :
    (dot_S2048x32_S2048x1024_S32x1024_0_0_1_1_n_n.rhsIdx i q 1).val = (i 1).val := by
  unfold DotDims.rhsIdx
  rw [dif_neg (show ¬(1 : Fin S2048x1024.rank) ∈ dot_S2048x32_S2048x1024_S32x1024_0_0_1_1_n_n.rhsBatch by decide), dif_pos (show (1 : Fin S2048x1024.rank) ∈ dot_S2048x32_S2048x1024_S32x1024_0_0_1_1_n_n.rhsNonContracting by decide)]
  rfl

/-- The product into the zero accumulator at `(o, d)`: the sum over the tile's rows `k` of `A[k, o] · B[k, d]`. -/
theorem tileProduct_apply (A : FVec Ideal S2048x32 .bf16) (B : FVec Ideal S2048x1024 .bf16) (o : Fin 32) (d : Fin 1024) :
    matmul dot_S2048x32_S2048x1024_S32x1024_0_0_1_1_n_n none A B (constant (F := Ideal) S32x1024 .f32 0x00000000#32) (ix2 o d)
      = ∑ k : Fin 2048, A (ix2 k o) * B (ix2 k d) := by
  simp only [matmul]
  rw [Ideal.matmul_constant_zero_apply, ← Equiv.sum_comp (contrEquiv1 dot_S2048x32_S2048x1024_S32x1024_0_0_1_1_n_n 2048 rfl rfl).symm]
  refine Finset.sum_congr rfl fun k _ => ?_
  have hk := contrEquiv1_symm_val dot_S2048x32_S2048x1024_S32x1024_0_0_1_1_n_n 2048 rfl rfl k
  have el : dot_S2048x32_S2048x1024_S32x1024_0_0_1_1_n_n.lhsIdx (ix2 o d) ((contrEquiv1 dot_S2048x32_S2048x1024_S32x1024_0_0_1_1_n_n 2048 rfl rfl).symm k) = ix2 k o := funext fun a => Fin.ext (by
    match a with
    | ⟨0, _⟩ => exact (lhs_tile_0 _ _).trans hk
    | ⟨1, _⟩ => exact lhs_tile_1 _ _)
  have er : dot_S2048x32_S2048x1024_S32x1024_0_0_1_1_n_n.rhsIdx (ix2 o d) ((contrEquiv1 dot_S2048x32_S2048x1024_S32x1024_0_0_1_1_n_n 2048 rfl rfl).symm k) = ix2 k d := funext fun a => Fin.ext (by
    match a with
    | ⟨0, _⟩ => exact (rhs_tile_0 _ _).trans hk
    | ⟨1, _⟩ => exact rhs_tile_1 _ _)
  rw [el, er]

/-! ## The stored values -/

/-- The reset stores zero. -/
theorem reset_apply (j : S32x1024.Idx) : k0_pay1 (F := Ideal) j = 0 := by
  unfold k0_pay1
  rw [shapeCast_self]
  exact Ideal.ofBits_zero_f32

/-- The weights, one per column, spread over the tile's rows and multiplied in. -/
theorem weighted_apply (y : FVec Ideal S2048x32 .f32) (w : FVec Ideal S32 .f32) (k : Fin 2048) (o : Fin 32) :
    mulf y (broadcastTo S2048x32 (shapeCast S1x32 w shapeCasts_S32_S1x32) broadcasts_S1x32_S2048x32) (ix2 k o)
      = y (ix2 k o) * w (ix1 o) := by
  rw [mulf_apply, broadcastTo_1b_ab_apply, shapeCast_a_1a_apply]

/-- The accumulation step at `(o, d)`. -/
theorem accumulate_apply (y : Vec Ideal S2048x32 .f32) (x : Vec Ideal S2048x1024 .f32) (w : Vec Ideal S32 .f32)
    (acc : Vec Ideal S32x1024 .f32) (o : Fin 32) (d : Fin 1024) :
    k0_pay2 (F := Ideal) y x w acc (ix2 o d)
      = acc (ix2 o d) + ∑ k : Fin 2048, (y (ix2 k o) * w (ix1 o)) * x (ix2 k d) := by
  unfold k0_pay2
  rw [shapeCast_self, addf_apply, tileProduct_apply]
  refine congrArg (acc (ix2 o d) + ·) (Finset.sum_congr rfl fun k _ => ?_)
  rw [truncf_apply, truncf_apply, weighted_apply]

/-- A row's sum: the lane reduction at `o` is the sum over the row's 1024 entries. -/
theorem rowSum_apply (src : FVec Ideal S32x1024 .f32) (o : Fin 32) :
    multiReduction (F := Ideal) .add [1] S32 src 0x00000000#32 reduces_S32x1024_S32 (.inl rfl) rfl (ix1 o)
      = ∑ d : Fin 1024, src (ix2 o d) := by
  refine (Ideal.multiReduction_add_single src 0x00000000#32 reduces_S32x1024_S32 (.inl rfl) rfl (ix1 o)).trans ?_
  refine Finset.sum_congr rfl fun d _ => congrArg src (funext fun a => Fin.ext ?_)
  match a with
  | ⟨0, _⟩ => rfl
  | ⟨1, _⟩ => rfl

/-- The epilogue at `o`. -/
theorem epilogue_apply (acc : Vec Ideal S32x1024 .f32) (o : Fin 32) :
    k0_pay3 (F := Ideal) acc (ix1 o)
      = Ideal.sqrt (∑ d : Fin 1024, (acc (ix2 o d) * Ideal.ofBits .f32 0x38000000#32)
          * (acc (ix2 o d) * Ideal.ofBits .f32 0x38000000#32)) := by
  unfold k0_pay3
  show Ideal.sqrt (multiReduction (F := Ideal) .add [1] S32 _ 0x00000000#32 reduces_S32x1024_S32 (.inl rfl) rfl (ix1 o)) = _
  rw [rowSum_apply]
  rfl

end Cert.KernelIdeal.Payloads

end
-- ==== Proof.Pieces.lean ====
/-
  What one run of the kernel body leaves behind, in each of its three control cases, as the body's own arithmetic.

  The accumulator scratch is stored whole by every case, so what it holds afterwards is the last stored value:
  the accumulation step over what it held before — over the zero the reset has just stored, at the grid's first point.
  At the last point the output block is stored whole too, with the epilogue of the accumulator just written.
-/
import proofs.«103239_j89266600280080_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a <;> rfl

/-- First point: the reset's zero, then the step over it. -/
theorem scratch_first (c : Dev nD) (i : grid0.Coords) (arg1 : Memref sig .tc .vmem S2048x32 .f32) (harg1 : arg1.IsWhole) (arg2 : Memref sig .tc .vmem S2048x1024 .f32) (harg2 : arg2.IsWhole) (arg3 : Memref sig .tc .vmem S32 .f32) (harg3 : arg3.IsWhole) (arg4 : Memref sig .tc .vmem S32 .f32) (harg4 : arg4.IsWhole) (arg5 : Memref sig .tc .vmem S32x1024 .f32) (harg5 : arg5.IsWhole) (hc0 : cond0_0 i) (hc1 : ¬cond0_1 i) (x0 : Vec F S2048x32 .f32) (x1 : Vec F S2048x1024 .f32) (x2 : Vec F S32 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S32x1024) origin2, View.readCov_unit_zero (S := S32x1024) _ origin2]
  simp only [View.readAt_eq_ld, harg1.read_unread, harg2.read_unread, harg3.read_unread,
    View.ld_unit_zero (S := S2048x32) origin2, View.ld_unit_zero (S := S2048x1024) origin2,
    View.ld_unit_zero (S := S32) origin1]

/-- A middle point: the step over what the point before left. -/
theorem scratch_middle (c : Dev nD) (i : grid0.Coords) (arg1 : Memref sig .tc .vmem S2048x32 .f32) (harg1 : arg1.IsWhole) (arg2 : Memref sig .tc .vmem S2048x1024 .f32) (harg2 : arg2.IsWhole) (arg3 : Memref sig .tc .vmem S32 .f32) (harg3 : arg3.IsWhole) (arg4 : Memref sig .tc .vmem S32 .f32) (harg4 : arg4.IsWhole) (arg5 : Memref sig .tc .vmem S32x1024 .f32) (harg5 : arg5.IsWhole) (hc0 : ¬cond0_0 i) (hc1 : ¬cond0_1 i) (x0 : Vec F S2048x32 .f32) (x1 : Vec F S2048x1024 .f32) (x2 : Vec F S32 .f32) (xs0 : Vec F S32x1024 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero origin2]
  simp only [View.readAt_eq_ld, harg1.read_unread, harg2.read_unread, harg3.read_unread, harg5.read_unread,
    View.ld_unit_zero (S := S2048x32) origin2, View.ld_unit_zero (S := S2048x1024) origin2,
    View.ld_unit_zero (S := S32) origin1, View.ld_unit_zero (S := S32x1024) origin2]

/-- The last point leaves the same in the scratch … -/
theorem scratch_last (c : Dev nD) (i : grid0.Coords) (arg1 : Memref sig .tc .vmem S2048x32 .f32) (harg1 : arg1.IsWhole) (arg2 : Memref sig .tc .vmem S2048x1024 .f32) (harg2 : arg2.IsWhole) (arg3 : Memref sig .tc .vmem S32 .f32) (harg3 : arg3.IsWhole) (arg4 : Memref sig .tc .vmem S32 .f32) (harg4 : arg4.IsWhole) (arg5 : Memref sig .tc .vmem S32x1024 .f32) (harg5 : arg5.IsWhole) (hc0 : ¬cond0_0 i) (hc1 : cond0_1 i) (x0 : Vec F S2048x32 .f32) (x1 : Vec F S2048x1024 .f32) (x2 : Vec F S32 .f32) (xs0 : Vec F S32x1024 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero origin2]
  simp only [View.readAt_eq_ld, harg1.read_unread, harg2.read_unread, harg3.read_unread, harg5.read_unread,
    View.ld_unit_zero (S := S2048x32) origin2, View.ld_unit_zero (S := S2048x1024) origin2,
    View.ld_unit_zero (S := S32) origin1, View.ld_unit_zero (S := S32x1024) origin2]

/-- … and in the output block the epilogue of it. -/
theorem result_last (c : Dev nD) (i : grid0.Coords) (arg1 : Memref sig .tc .vmem S2048x32 .f32) (harg1 : arg1.IsWhole) (arg2 : Memref sig .tc .vmem S2048x1024 .f32) (harg2 : arg2.IsWhole) (arg3 : Memref sig .tc .vmem S32 .f32) (harg3 : arg3.IsWhole) (arg4 : Memref sig .tc .vmem S32 .f32) (harg4 : arg4.IsWhole) (arg5 : Memref sig .tc .vmem S32x1024 .f32) (harg5 : arg5.IsWhole) (hc0 : ¬cond0_0 i) (hc1 : cond0_1 i) (x0 : Vec F S2048x32 .f32) (x1 : Vec F S2048x1024 .f32) (x2 : Vec F S32 .f32) (xs0 : Vec F S32x1024 .f32) :
    out0_C_3 c i arg1 harg1 arg2 harg2 arg3 harg3 arg4 harg4 arg5 harg5 hc0 hc1 x0 x1 x2 xs0 = k0_pay3 (k0_pay2 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero origin1]
  simp only [View.readAt_eq_ld, harg1.read_unread, harg2.read_unread, harg3.read_unread, harg5.read_unread,
    View.ld_unit_zero (S := S2048x32) origin2, View.ld_unit_zero (S := S2048x1024) origin2,
    View.ld_unit_zero (S := S32) origin1, View.ld_unit_zero (S := S32x1024) origin2,
    View.readCov_unit_zero (S := S32x1024) _ origin2]

end Cert.KernelIdeal.Pieces

end
-- ==== Proof.Blocks.lean ====
/-
  Where each input window's block sits in its array.

  At grid point `t` the outputs' and the inputs' windows hold rows `2048 t … 2048 t + 2047` of their arrays, all columns;
  the weights' window holds the whole weight vector at every point. So entry `(k, o)` of a block is entry
  `(2048 t + k, o)` of the array.
-/
import proofs.«103239_j89266600280080_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the grid: block row `t`, block column `0`; the weights' block `0`. -/
theorem index_rows : ∀ t : Fin cfg0.N, win0_0.index t 0 = t.val ∧ win0_0.index t 1 = 0
    ∧ win0_1.index t 0 = t.val ∧ win0_1.index t 1 = 0 ∧ win0_2.index t 0 = 0 :=
  (by decide +kernel : ∀ t : Fin grid0.N, _)

theorem yBlock_apply (c : Dev nD) (t : Fin cfg0.N) (k : Fin 2048) (o : Fin 32) (h : t.val * 2048 + k.val < 32768) :
    (iblk m c 0 t : Vec F S2048x32 .f32) (ix2 k o) = m ((c : Thread nD τ).loc main_arg0) (ix2 ⟨t.val * 2048 + k.val, h⟩ o) := by
  unfold iblk
  rw [View.read_apply]
  show V m c main_arg0 _ = m (c.tc.loc main_arg0) _
  unfold V
  congr 1
  funext a
  apply Fin.ext
  match a with
  | ⟨0, _⟩ => show win0_0.index t 0 * 2048 + 1 * k.val = t.val * 2048 + k.val; rw [(index_rows t).1]; omega
  | ⟨1, _⟩ => show win0_0.index t 1 * 32 + 1 * o.val = o.val; rw [(index_rows t).2.1]; omega

theorem xBlock_apply (c : Dev nD) (t : Fin cfg0.N) (k : Fin 2048) (d : Fin 1024) (h : t.val * 2048 + k.val < 32768) :
    (iblk m c 1 t : Vec F S2048x1024 .f32) (ix2 k d) = m ((c : Thread nD τ).loc main_arg1) (ix2 ⟨t.val * 2048 + k.val, h⟩ d) := by
  unfold iblk
  rw [View.read_apply]
  show V m c main_arg1 _ = m (c.tc.loc main_arg1) _
  unfold V
  congr 1
  funext a
  apply Fin.ext
  match a with
  | ⟨0, _⟩ => show win0_1.index t 0 * 2048 + 1 * k.val = t.val * 2048 + k.val; rw [(index_rows t).2.2.1]; omega
  | ⟨1, _⟩ => show win0_1.index t 1 * 1024 + 1 * d.val = d.val; rw [(index_rows t).2.2.2.1]; omega

theorem wBlock_apply (c : Dev nD) (t : Fin cfg0.N) (o : Fin 32) :
    (iblk m c 2 t : Vec F S32 .f32) (ix1 o) = m ((c : Thread nD τ).loc main_arg2) (ix1 o) := by
  unfold iblk
  rw [View.read_apply]
  show V m c main_arg2 _ = m (c.tc.loc main_arg2) _
  unfold V
  congr 1
  funext a
  apply Fin.ext
  match a with
  | ⟨0, _⟩ => show win0_2.index t 0 * 32 + 1 * o.val = o.val; rw [(index_rows t).2.2.2.2]; omega

end Cert.KernelIdeal.Blocks

end
-- ==== Proof.KernelValue.lean ====
/-
  The kernel's result array is `norm` of its arguments.

  The accumulator scratch after grid point `n` holds, at `(o, d)`, the partial sum of tiles `0 … n` — by induction on the
  point: the first point's step starts from the zero it has just stored, every later point's from what the point before
  left, and a step adds its own tile's sum (a block's row `k` at point `t` is the array's row `2048 t + k`). After the
  sixteenth point that is the whole batch sum. Only the last point stores and writes back the output block, the epilogue
  of the accumulator, and its block is the whole 32-entry result array.
-/
import proofs.«103239_j89266600280080_1_alg».proof.Proof.Gen.KernelIdeal.Value
import proofs.«103239_j89266600280080_1_alg».proof.Proof.GradNormSpec
import proofs.«103239_j89266600280080_1_alg».proof.Proof.Payloads
import proofs.«103239_j89266600280080_1_alg».proof.Proof.Pieces
import proofs.«103239_j89266600280080_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.GradNormSpec

variable (m : (ℓ : Loc nD τ sig) → Buf (Elt Ideal) ℓ) (ρ : Dev nD → PrngReg)

/-- The three argument arrays. -/
abbrev Yarr (c : Dev nD) : FVec Ideal ⟨2, ![32768, 32]⟩ .f32 := m ((c : Thread nD τ).loc main_arg0)
abbrev Xarr (c : Dev nD) : FVec Ideal ⟨2, ![32768, 1024]⟩ .f32 := m ((c : Thread nD τ).loc main_arg1)
abbrev warr (c : Dev nD) : FVec Ideal ⟨1, ![32]⟩ .f32 := m ((c : Thread nD τ).loc main_arg2)

/-! ## What each point leaves, as the body's arithmetic on the point's blocks -/

theorem after_first (c : Dev nD) (t : Fin cfg0.N) (h0 : t.val % 16 = 0) (h1 : ¬t.val % 16 = 15) :
    (outsAt0 m c t.val t.isLt).2 = k0_pay2 (iblk m c 0 t) (iblk m c 1 t) (iblk m c 2 t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem after_middle (c : Dev nD) (t : Fin cfg0.N) (h0 : ¬t.val % 16 = 0) (h1 : ¬t.val % 16 = 15) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_B m c t h0 h1]
  dsimp only
  exact Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem after_last (c : Dev nD) (t : Fin cfg0.N) (h0 : ¬t.val % 16 = 0) (h1 : t.val % 16 = 15) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem stored_last (c : Dev nD) (t : Fin cfg0.N) (h0 : ¬t.val % 16 = 0) (h1 : t.val % 16 = 15) :
    (outsAt0 m c t.val t.isLt).1 = k0_pay3 (k0_pay2 (iblk m c 0 t) (iblk m c 1 t) (iblk m c 2 t) (outsAt0 m c (t.val - 1) (Nat.lt_of_le_of_lt (Nat.sub_le _ _) t.isLt)).2) := by
  rw [outsAt0_C m c t h0 h1]
  dsimp only
  exact Pieces.result_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## One step adds its tile -/

/-- The step at point `t` over an accumulator `acc`, at `(o, d)`: `acc` there plus tile `t`'s partial sum. -/
theorem step_apply (c : Dev nD) (t : Fin cfg0.N) (acc : Vec Ideal S32x1024 .f32) (o : Fin 32) (d : Fin 1024) :
    k0_pay2 (F := Ideal) (iblk m c 0 t) (iblk m c 1 t) (iblk m c 2 t) acc (ix2 o d)
      = acc (ix2 o d) + tile (Yarr m c) (Xarr m c) (warr m c) o d t.val := by
  refine (Payloads.accumulate_apply (iblk m c 0 t) (iblk m c 1 t) (iblk m c 2 t) acc o d).trans ?_
  refine congrArg (acc (ix2 o d) + ·) ?_
  unfold tile
  refine Finset.sum_congr rfl fun k _ => ?_
  have h : t.val * 2048 + k.val < 32768 := by
    have h1 := t.isLt
    have h2 : cfg0.N = 16 := N_0
    have h3 := k.isLt
    omega
  rw [row_of_lt _ _ _ o d _ h, Blocks.yBlock_apply m c t k o h, Blocks.xBlock_apply m c t k d h, Blocks.wBlock_apply m c t o]
  rfl

/-! ## The accumulator after each point -/

theorem scratch_after (c : Dev nD) : ∀ (n : ℕ) (hn : n < cfg0.N) (o : Fin 32) (d : Fin 1024),
    (outsAt0 m c n hn).2 (ix2 o d) = partialSum (Yarr m c) (Xarr m c) (warr m c) o d n
  | 0, hn, o, d => by
    refine (congrFun (after_first m c ⟨0, hn⟩ rfl (by show ¬(0 % 16 = 15); decide)) (ix2 o d)).trans ?_
    refine (step_apply m c ⟨0, hn⟩ _ o d).trans ?_
    rw [Payloads.reset_apply, partialSum_zero]
  | n + 1, hn, o, d => by
    have hN : cfg0.N = 16 := N_0
    have h0 : ¬(⟨n + 1, hn⟩ : Fin cfg0.N).val % 16 = 0 := by dsimp only; omega
    by_cases h15 : (⟨n + 1, hn⟩ : Fin cfg0.N).val % 16 = 15
    · refine (congrFun (after_last m c ⟨n + 1, hn⟩ h0 h15) (ix2 o d)).trans ?_
      refine (step_apply m c ⟨n + 1, hn⟩ _ o d).trans ?_
      rw [partialSum_succ]
      exact congrArg (· + _) (scratch_after c n _ o d)
    · refine (congrFun (after_middle m c ⟨n + 1, hn⟩ h0 h15) (ix2 o d)).trans ?_
      refine (step_apply m c ⟨n + 1, hn⟩ _ o d).trans ?_
      rw [partialSum_succ]
      exact congrArg (· + _) (scratch_after c n _ o d)

/-! ## The result -/

/-- What the result array ends holding. -/
abbrev result (c : Dev nD) : Buf (Elt Ideal) ((c : Thread nD τ).loc main_v0) :=
  norm (Yarr m c) (Xarr m c) (warr m c)

/-- The last point stores `norm` into the output block. -/
theorem stored_eq (c : Dev nD) : (outsAt0 m c t0_15.val t0_15.isLt).1 = result m c := by
  funext i
  obtain ⟨o, rfl⟩ : ∃ o : Fin 32, i = ix1 o := ⟨i 0, eq_ix1 i⟩
  refine (congrFun (stored_last m c t0_15 (by decide) (by decide)) (ix1 o)).trans ?_
  refine (Payloads.epilogue_apply _ o).trans ?_
  refine congrArg Ideal.sqrt (Finset.sum_congr rfl fun d _ => ?_)
  have e : k0_pay2 (F := Ideal) (iblk m c 0 t0_15) (iblk m c 1 t0_15) (iblk m c 2 t0_15) (outsAt0 m c (t0_15.val - 1) (Nat.lt_of_le_of_lt (Nat.sub_le _ _) t0_15.isLt)).2 (ix2 o d)
      = gram (Yarr m c) (Xarr m c) (warr m c) o d := by
    rw [← partialSum_last]
    exact (congrFun (after_last m c t0_15 (by decide) (by decide)) (ix2 o d)).symm.trans (scratch_after m c 15 t0_15.isLt o d)
  rw [e]

/-- The one write-back, at the last point, writes it: block `0` of the 32-entry array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = t0_15 := Fin.ext h15
  rw [Value.flushed3, stored_eq]
  have hz' : (fun a => win0_3.index t0_15 a * main_v0.ty.shape.size a) = fun _ => 0 := funext fun a => by fin_cases a <;> decide
  exact (Memref.read_access_unit_zero (Elt Ideal) main_v0 hz' (fun a => by rw [congrFun hz' a]; simp) (result m c)).symm

/-- So the result array ends at `norm`. -/
theorem final (c : Dev nD) : (dats m 0 c).arrAt 3 cfg0.N = result m c :=
  (dats m 0 c).arrAt_eq_of_cover 3 (result m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 32 := (i 0).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 32 from by decide +kernel]; omega⟩

/-- The run, read: the result array at `norm` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference computes `norm`.

  Read one operation at a time, the reference's result at task `o` is `sqrt (0 + ∑ d, q[o, d] · q[o, d])` with
  `q[o, d] = (∑ b, (Y[b, o] · w[o]) · X[b, d]) / 32768`: the weights broadcast along the batch, one product contracting the
  batch axis, the quotient by the batch size, the row sums of squares, the root. The quotient is the product with `2⁻¹⁵`
  on every extended real, and the zero the sum starts from adds nothing.
-/
import proofs.«103239_j89266600280080_1_alg».proof.Proof.Gen.ReferenceIdeal.Read
import proofs.«103239_j89266600280080_1_alg».proof.Proof.GradNormSpec

noncomputable section

open scoped BigOperators
open Idealize.ShloMosaic Idealize.ShloMosaic.ValueIdx

namespace Cert.ReferenceIdeal.RefValue

open Cert.ReferenceIdeal Cert.ReferenceIdeal.Read

/-- The product's left operand at batch row `b`, for output entry `(o, d)`, is entry `(b, o)`. -/
theorem lidx_eq (o : Fin 32) (d : Fin 1024) (b : Fin 32768) :
    lidx_main_v3 (idx_main_v7 (ix1 o) d) b = ix2 b o :=
  funext fun a => Fin.ext (by match a with | ⟨0, _⟩ => rfl | ⟨1, _⟩ => rfl)

/-- Its right operand there is entry `(b, d)`. -/
theorem ridx_eq (o : Fin 32) (d : Fin 1024) (b : Fin 32768) :
    ridx_main_v3 (idx_main_v7 (ix1 o) d) b = ix2 b d :=
  funext fun a => Fin.ext (by match a with | ⟨0, _⟩ => rfl | ⟨1, _⟩ => rfl)

/-- The broadcast weights at `(b, o)` are the weight of task `o`. -/
theorem widx_eq (o : Fin 32) (b : Fin 32768) : idx_main_v0 (idx_main_v1 (ix2 b o)) = ix1 o :=
  funext fun a => Fin.ext (by match a with | ⟨0, _⟩ => rfl)

/-- The contracted product at `(o, d)` is the batch sum `gram o d`. -/
theorem product_eq (Y : (⟨S32768x32, .f32⟩ : BufTy).Contents (Elt Ideal)) (X : (⟨S32768x1024, .f32⟩ : BufTy).Contents (Elt Ideal))
    (w : (⟨S32, .f32⟩ : BufTy).Contents (Elt Ideal)) (o : Fin 32) (d : Fin 1024) :
    val_main_v3 (F := Ideal) Y X w (idx_main_v7 (ix1 o) d) = Cert.GradNormSpec.gram Y X w o d := by
  rw [val_main_v3_apply]
  unfold Cert.GradNormSpec.gram Cert.GradNormSpec.term
  refine Finset.sum_congr rfl fun b _ => ?_
  rw [lidx_eq, ridx_eq, val_main_v2_apply, val_main_v1_apply, val_main_v0_apply, widx_eq]
  rfl

/-- The reference's result is `norm` of its arguments. -/
theorem reference_eq (Y : (⟨S32768x32, .f32⟩ : BufTy).Contents (Elt Ideal)) (X : (⟨S32768x1024, .f32⟩ : BufTy).Contents (Elt Ideal))
    (w : (⟨S32, .f32⟩ : BufTy).Contents (Elt Ideal)) :
    val_main_v8 (F := Ideal) Y X w = Cert.GradNormSpec.norm Y X w := by
  funext i
  obtain ⟨o, rfl⟩ : ∃ o : Fin 32, i = ix1 o := ⟨i 0, eq_ix1 i⟩
  rw [val_main_v8_apply, val_main_v7_apply, val_main_cst_0_apply]
  unfold Cert.GradNormSpec.norm
  rw [Ideal.hostUnary_sqrt_def, Ideal.ofBits_def, Ideal.ofBits_zero_f32, zero_add]
  refine congrArg Ideal.sqrt (Finset.sum_congr rfl fun d _ => ?_)
  rw [val_main_v6_apply, val_main_v5_apply, val_main_v4_apply, val_main_cst_apply, product_eq,
    Ideal.hostDivf_def, Ideal.ofBits_def, Cert.BatchTiles.div_batch]
  rfl

end Cert.ReferenceIdeal.RefValue

end
-- ==== Proof.lean ====
/-
  The task-weighted gradient norms: a Pallas kernel against its jnp reference, equal over the extended reals.

  For outputs `Y` [32768, 32], inputs `X` [32768, 1024] and task weights `w` [32] both programs return, per task `o`,
    sqrt (∑ d, m[o, d] · m[o, d]),   m[o, d] = (∑ b, (Y[b, o] · w[o]) · X[b, d]) / 32768.
  The reference forms the batch sum in one contraction and divides by `32768`. The kernel walks the batch in 16 tiles of 2048
  rows, adds each tile's product (both operands narrowed to bf16, which is the identity on the extended reals) to an
  accumulator it zeroes at the first tile, and after the last tile multiplies by `2⁻¹⁵`, squares, sums each row and takes
  the root. Cutting a sum over the extended reals into tiles is free (addition there commutes and associates), and the
  quotient by `32768` is the product with `2⁻¹⁵` at the infinities too: so the two results are one function `norm` of the
  arguments (Proof/GradNormSpec.lean), and no finiteness of the inputs is used.

  Proof/KernelValue.lean reads the kernel's run as `norm` (the accumulator after each grid point by induction on the
  point; the one write-back at the last point covers the result array), Proof/RefValue.lean the reference's run, one
  operation at a time. The idealization changes no operation, so the kernel's idealized text is its own.
-/
import proofs.«103239_j89266600280080_1_alg».proof.Defs
import proofs.«103239_j89266600280080_1_alg».proof.Proof.Gen.Kernel
import proofs.«103239_j89266600280080_1_alg».proof.Proof.Gen.Kernel.Skeleton
import proofs.«103239_j89266600280080_1_alg».proof.Proof.Gen.Kernel.Launch
import proofs.«103239_j89266600280080_1_alg».proof.Proof.Gen.Kernel.Points
import proofs.«103239_j89266600280080_1_alg».proof.Proof.Gen.Kernel.Frame
import proofs.«103239_j89266600280080_1_alg».proof.Proof.Gen.KernelIdeal
import proofs.«103239_j89266600280080_1_alg».proof.Proof.Gen.KernelIdeal.Skeleton
import proofs.«103239_j89266600280080_1_alg».proof.Proof.Gen.KernelIdeal.Launch
import proofs.«103239_j89266600280080_1_alg».proof.Proof.Gen.KernelIdeal.Points
import proofs.«103239_j89266600280080_1_alg».proof.Proof.Gen.KernelIdeal.Frame
import proofs.«103239_j89266600280080_1_alg».proof.Proof.Gen.ReferenceIdeal
import proofs.«103239_j89266600280080_1_alg».proof.Proof.Gen.KernelIdeal.Value
import proofs.«103239_j89266600280080_1_alg».proof.Proof.Gen.ReferenceIdeal.Run
import proofs.«103239_j89266600280080_1_alg».proof.Proof.Gen.ReferenceIdeal.Read
import proofs.«103239_j89266600280080_1_alg».proof.Proof.Gen.Pre_finite_inputs
import proofs.«103239_j89266600280080_1_alg».proof.Proof.KernelValue
import proofs.«103239_j89266600280080_1_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel ends at `norm` of its own and the reference at `norm` of its own. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _).trans ?_
  rw [Cert.ReferenceIdeal.RefValue.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
